-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x4096 : Shape := ⟨3, ![8, 4096, 4096]⟩
abbrev S8x64x64x2 : Shape := ⟨4, ![8, 64, 64, 2]⟩
abbrev S_ : Shape := ⟨0, ![]⟩

class Facts : Prop where
  bcast_S_S8x4096x4096 : S_.BroadcastsInDim S8x4096x4096 (![] : Fin 0 → Fin S8x4096x4096.rank)
  reducesTo_S8x4096x4096_S_d0_1_2 : S8x4096x4096.ReducesTo [0, 1, 2] S_
  h_S_ : 0 < S_.numel
  bcast_S_S8x64x64x2 : S_.BroadcastsInDim S8x64x64x2 (![] : Fin 0 → Fin S8x64x64x2.rank)
  reducesTo_S8x64x64x2_S_d0_1_2_3 : S8x64x64x2.ReducesTo [0, 1, 2, 3] S_

variable [Facts]

def fn {F : FTy → Type} [FloatOps F] (main_arg0 : FVec F S8x4096x4096 .f32) (main_arg1 : FVec F S8x64x64x2 .f32) : IVec S_ 1 :=
  let main_v0 : FVec F S8x4096x4096 .f32 := Host.absf main_arg0
  let main_cst : FVec F S_ .f32 := constant S_ .f32 0x7F800000#32
  let main_v1 : FVec F S8x4096x4096 .f32 := broadcastInDim S8x4096x4096 ![] bcast_S_S8x4096x4096 main_cst
  let main_v2 : IVec S8x4096x4096 1 := cmpf .olt main_v0 main_v1
  let main_c : IVec S_ 1 := constantI S_ 1 1#1
  let main_v3 : IVec S_ 1 := (fun x v => Host.reduce IntOp.andi x v reducesTo_S8x4096x4096_S_d0_1_2 h_S_) main_v2 main_c
  let main_v4 : FVec F S8x64x64x2 .f32 := Host.absf main_arg1
  let main_cst_0 : FVec F S_ .f32 := constant S_ .f32 0x7F800000#32
  let main_v5 : FVec F S8x64x64x2 .f32 := broadcastInDim S8x64x64x2 ![] bcast_S_S8x64x64x2 main_cst_0
  let main_v6 : IVec S8x64x64x2 1 := cmpf .olt main_v4 main_v5
  let main_c_1 : IVec S_ 1 := constantI S_ 1 1#1
  let main_v7 : IVec S_ 1 := (fun x v => Host.reduce IntOp.andi x v reducesTo_S8x64x64x2_S_d0_1_2_3 h_S_) main_v6 main_c_1
  let main_v8 : IVec S_ 1 := andi main_v3 main_v7
  main_v8
-- ==== Kernel.lean ====
abbrev S8x4096x4096 : Shape := ⟨3, ![8, 4096, 4096]⟩
abbrev S8x64x64x2 : Shape := ⟨4, ![8, 64, 64, 2]⟩
abbrev S8x2x64x64 : Shape := ⟨4, ![8, 2, 64, 64]⟩
abbrev S8x2x4096 : Shape := ⟨3, ![8, 2, 4096]⟩
abbrev S1x2x512 : Shape := ⟨3, ![1, 2, 512]⟩
abbrev S1x512x4096 : Shape := ⟨3, ![1, 512, 4096]⟩
abbrev S1x2x4096 : Shape := ⟨3, ![1, 2, 4096]⟩
abbrev S2x4096 : Shape := ⟨2, ![2, 4096]⟩
abbrev S2x512 : Shape := ⟨2, ![2, 512]⟩
abbrev S512x4096 : Shape := ⟨2, ![512, 4096]⟩
abbrev S15 : Shape := ⟨1, ![15]⟩
abbrev S_ : Shape := ⟨0, ![]⟩
abbrev S15x1 : Shape := ⟨2, ![15, 1]⟩
abbrev S8 : Shape := ⟨1, ![8]⟩
abbrev S1x8 : Shape := ⟨2, ![1, 8]⟩
abbrev S15x8 : Shape := ⟨2, ![15, 8]⟩
abbrev S15x8x1 : Shape := ⟨3, ![15, 8, 1]⟩
abbrev S8x2x15x8x64 : Shape := ⟨5, ![8, 2, 15, 8, 64]⟩
abbrev S8x2x15x8x15x8 : Shape := ⟨6, ![8, 2, 15, 8, 15, 8]⟩
abbrev S8x2x15x15x8x8 : Shape := ⟨6, ![8, 2, 15, 15, 8, 8]⟩
abbrev S8x2x225x64 : Shape := ⟨4, ![8, 2, 225, 64]⟩
abbrev S8x2x225 : Shape := ⟨3, ![8, 2, 225]⟩
abbrev S8x2x225x1 : Shape := ⟨4, ![8, 2, 225, 1]⟩

abbrev nBuf : Space → Nat
  | .hbm => 59
  | .vmem => 7
  | .smem => 0
  | _ => 0

abbrev bufTy : (tb : Table) → Fin (tcTables nBuf tb) → BufTy
  | .hbm, ⟨0, _⟩ => ⟨S8x4096x4096, .f32⟩
  | .hbm, ⟨1, _⟩ => ⟨S8x64x64x2, .f32⟩
  | .hbm, ⟨2, _⟩ => ⟨S8x2x64x64, .f32⟩
  | .hbm, ⟨3, _⟩ => ⟨S8x2x4096, .f32⟩
  | .hbm, ⟨4, _⟩ => ⟨S8x2x4096, .f32⟩
  | .hbm, ⟨5, _⟩ => ⟨S8x2x64x64, .f32⟩
  | .hbm, ⟨6, _⟩ => ⟨S15, .i32⟩
  | .hbm, ⟨7, _⟩ => ⟨S_, .i32⟩
  | .hbm, ⟨8, _⟩ => ⟨S15, .i32⟩
  | .hbm, ⟨9, _⟩ => ⟨S15, .i32⟩
  | .hbm, ⟨10, _⟩ => ⟨S15, .i32⟩
  | .hbm, ⟨11, _⟩ => ⟨S_, .i32⟩
  | .hbm, ⟨12, _⟩ => ⟨S15, .i32⟩
  | .hbm, ⟨13, _⟩ => ⟨S15, .i32⟩
  | .hbm, ⟨14, _⟩ => ⟨S15x1, .i32⟩
  | .hbm, ⟨15, _⟩ => ⟨S8, .i32⟩
  | .hbm, ⟨16, _⟩ => ⟨S1x8, .i32⟩
  | .hbm, ⟨17, _⟩ => ⟨S15x8, .i32⟩
  | .hbm, ⟨18, _⟩ => ⟨S15x8, .i32⟩
  | .hbm, ⟨19, _⟩ => ⟨S15x8, .i32⟩
  | .hbm, ⟨20, _⟩ => ⟨S_, .i32⟩
  | .hbm, ⟨21, _⟩ => ⟨S15x8, .i32⟩
  | .hbm, ⟨22, _⟩ => ⟨S15x8, .i1⟩
  | .hbm, ⟨23, _⟩ => ⟨S_, .i32⟩
  | .hbm, ⟨24, _⟩ => ⟨S15x8, .i32⟩
  | .hbm, ⟨25, _⟩ => ⟨S15x8, .i32⟩
  | .hbm, ⟨26, _⟩ => ⟨S15x8, .i32⟩
  | .hbm, ⟨27, _⟩ => ⟨S15x8x1, .i32⟩
  | .hbm, ⟨28, _⟩ => ⟨S8x2x15x8x64, .f32⟩
  | .hbm, ⟨29, _⟩ => ⟨S15x1, .i32⟩
  | .hbm, ⟨30, _⟩ => ⟨S8, .i32⟩
  | .hbm, ⟨31, _⟩ => ⟨S1x8, .i32⟩
  | .hbm, ⟨32, _⟩ => ⟨S15x8, .i32⟩
  | .hbm, ⟨33, _⟩ => ⟨S15x8, .i32⟩
  | .hbm, ⟨34, _⟩ => ⟨S15x8, .i32⟩
  | .hbm, ⟨35, _⟩ => ⟨S_, .i32⟩
  | .hbm, ⟨36, _⟩ => ⟨S15x8, .i32⟩
  | .hbm, ⟨37, _⟩ => ⟨S15x8, .i1⟩
  | .hbm, ⟨38, _⟩ => ⟨S_, .i32⟩
  | .hbm, ⟨39, _⟩ => ⟨S15x8, .i32⟩
  | .hbm, ⟨40, _⟩ => ⟨S15x8, .i32⟩
  | .hbm, ⟨41, _⟩ => ⟨S15x8, .i32⟩
  | .hbm, ⟨42, _⟩ => ⟨S15x8x1, .i32⟩
  | .hbm, ⟨43, _⟩ => ⟨S8x2x15x8x15x8, .f32⟩
  | .hbm, ⟨44, _⟩ => ⟨S8x2x15x15x8x8, .f32⟩
  | .hbm, ⟨45, _⟩ => ⟨S8x2x225x64, .f32⟩
  | .hbm, ⟨46, _⟩ => ⟨S_, .f32⟩
  | .hbm, ⟨47, _⟩ => ⟨S8x2x225, .f32⟩
  | .hbm, ⟨48, _⟩ => ⟨S8x2x225x1, .f32⟩
  | .hbm, ⟨49, _⟩ => ⟨S_, .f32⟩
  | .hbm, ⟨50, _⟩ => ⟨S8x2x225x1, .f32⟩
  | .hbm, ⟨51, _⟩ => ⟨S8x2x225x1, .f32⟩
  | .hbm, ⟨52, _⟩ => ⟨S8x2x225x64, .f32⟩
  | .hbm, ⟨53, _⟩ => ⟨S8x2x225x64, .f32⟩
  | .hbm, ⟨54, _⟩ => ⟨S8x2x225x64, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .local _ .vmem, ⟨0, _⟩ => ⟨S1x2x512, .f32⟩
  | .local _ .vmem, ⟨1, _⟩ => ⟨S1x2x512, .f32⟩
  | .local _ .vmem, ⟨2, _⟩ => ⟨S1x512x4096, .f32⟩
  | .local _ .vmem, ⟨3, _⟩ => ⟨S1x512x4096, .f32⟩
  | .local _ .vmem, ⟨4, _⟩ => ⟨S1x2x4096, .f32⟩
  | .local _ .vmem, ⟨5, _⟩ => ⟨S1x2x4096, .f32⟩
  | .local _ .vmem, ⟨6, _⟩ => ⟨S2x4096, .f32⟩
  | _, _ => ⟨S8x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_c_1 : Ref sig .tc := ⟨.hbm, 20, rfl⟩
abbrev main_v16 : Ref sig .tc := ⟨.hbm, 21, rfl⟩
abbrev main_v17 : Ref sig .tc := ⟨.hbm, 22, rfl⟩
abbrev main_c_2 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_c_3 : Ref sig .tc := ⟨.hbm, 35, rfl⟩
abbrev main_v29 : Ref sig .tc := ⟨.hbm, 36, rfl⟩
abbrev main_v30 : Ref sig .tc := ⟨.hbm, 37, rfl⟩
abbrev main_c_4 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_cst : Ref sig .tc := ⟨.hbm, 46, rfl⟩
abbrev main_v38 : Ref sig .tc := ⟨.hbm, 47, rfl⟩
abbrev main_v39 : Ref sig .tc := ⟨.hbm, 48, rfl⟩
abbrev main_cst_5 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_cst_6 : Ref sig .tc := ⟨.hbm, 55, rfl⟩
abbrev main_v45 : Ref sig .tc := ⟨.hbm, 56, rfl⟩
abbrev main_cst_7 : Ref sig .tc := ⟨.hbm, 57, rfl⟩
abbrev main_v46 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v15 : BitVec 1 := Scalar.cmpi .eq arg1 c7_i32
  let v16 : BitVec 32 := Scalar.extui v15
  let c0_i32_10 : BitVec 32 := 0#32
  let v17 : BitVec 1 := Scalar.cmpi .ne v16 c0_i32_10
  v17

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  transposes_S8x64x64x2_S8x2x64x64_0_3_1_2 : S8x64x64x2.Transposes [0, 3, 1, 2] S8x2x64x64
  shapeCasts_S8x2x64x64_S8x2x4096 : S8x2x64x64.ShapeCasts S8x2x4096
  inb_S2x4096_S2x4096_0_0 : ∀ a, (![0, 0] : Fin 2 → Nat) a + S2x4096.size a ≤ S2x4096.size a
  h_S2x4096 : 0 < S2x4096.numel
  shapeCasts_S2x4096_S2x4096 : S2x4096.ShapeCasts S2x4096
  inb_S1x2x512_S1x2x512_0_0_0 : ∀ a, (![0, 0, 0] : Fin 3 → Nat) a + S1x2x512.size a ≤ S1x2x512.size a
  h_S1x2x512 : 0 < S1x2x512.numel
  shapeCasts_S1x2x512_S2x512 : S1x2x512.ShapeCasts S2x512
  bitsLt_bf16_f32 : FTy.bits .bf16 < FTy.bits .f32
  inb_S1x512x4096_S1x512x4096_0_0_0 : ∀ a, (![0, 0, 0] : Fin 3 → Nat) a + S1x512x4096.size a ≤ S1x512x4096.size a
  h_S1x512x4096 : 0 < S1x512x4096.numel
  shapeCasts_S1x512x4096_S512x4096 : S1x512x4096.ShapeCasts S512x4096
  inb_S1x2x4096_S1x2x4096_0_0_0 : ∀ a, (![0, 0, 0] : Fin 3 → Nat) a + S1x2x4096.size a ≤ S1x2x4096.size a
  h_S1x2x4096 : 0 < S1x2x4096.numel
  shapeCasts_S1x2x4096_S2x4096 : S1x2x4096.ShapeCasts S2x4096
  shapeCasts_S2x4096_S1x2x4096 : S2x4096.ShapeCasts S1x2x4096
  shapeCasts_S8x2x4096_S8x2x64x64 : S8x2x4096.ShapeCasts S8x2x64x64
  bcast_S_S15 : S_.BroadcastsInDim S15 (![] : Fin 0 → Fin S15.rank)
  bcast_S15_S15x1_0 : S15.BroadcastsInDim S15x1 (![0] : Fin 1 → Fin S15x1.rank)
  bcast_S8_S1x8_1 : S8.BroadcastsInDim S1x8 (![1] : Fin 1 → Fin S1x8.rank)
  bcast_S15x1_S15x8_0_1 : S15x1.BroadcastsInDim S15x8 (![0, 1] : Fin 2 → Fin S15x8.rank)
  bcast_S1x8_S15x8_0_1 : S1x8.BroadcastsInDim S15x8 (![0, 1] : Fin 2 → Fin S15x8.rank)
  bcast_S_S15x8 : S_.BroadcastsInDim S15x8 (![] : Fin 0 → Fin S15x8.rank)
  bcast_S15x8_S15x8x1_0_1 : S15x8.BroadcastsInDim S15x8x1 (![0, 1] : Fin 2 → Fin S15x8x1.rank)
  transposes_S8x2x15x8x15x8_S8x2x15x15x8x8_0_1_2_4_3_5 : S8x2x15x8x15x8.Transposes [0, 1, 2, 4, 3, 5] S8x2x15x15x8x8
  shapeCasts_S8x2x15x15x8x8_S8x2x225x64 : S8x2x15x15x8x8.ShapeCasts S8x2x225x64
  reducesTo_S8x2x225x64_S8x2x225_d3 : S8x2x225x64.ReducesTo [3] S8x2x225
  h_S_ : 0 < S_.numel
  bcast_S8x2x225_S8x2x225x1_0_1_2 : S8x2x225.BroadcastsInDim S8x2x225x1 (![0, 1, 2] : Fin 3 → Fin S8x2x225x1.rank)
  bcast_S_S8x2x225x1 : S_.BroadcastsInDim S8x2x225x1 (![] : Fin 0 → Fin S8x2x225x1.rank)
  bcast_S8x2x225x1_S8x2x225x64_0_1_2_3 : S8x2x225x1.BroadcastsInDim S8x2x225x64 (![0, 1, 2, 3] : Fin 4 → Fin S8x2x225x64.rank)
  reducesTo_S8x2x225x64_S_d0_1_2_3 : S8x2x225x64.ReducesTo [0, 1, 2, 3] S_
  dot_S2x512_S512x4096_S2x4096_1_0_0_1_n_n_wf : DotDims.WF S2x512 S512x4096 S2x4096 [1] [0] [0] [1] [] []
  gather_S8x2x64x64_S15x8x1_S8x2x15x8x64_014_2_n_n_2_2_82164_wf : GatherDims.WF S8x2x64x64 S15x8x1 S8x2x15x8x64 [0, 1, 4] [2] [] [2] [] 2 ![8, 2, 1, 64]
  gather_S8x2x15x8x64_S15x8x1_S8x2x15x8x15x8_0123_4_n_n_4_2_821581_wf : GatherDims.WF S8x2x15x8x64 S15x8x1 S8x2x15x8x15x8 [0, 1, 2, 3] [4] [] [4] [] 2 ![8, 2, 15, 8, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2x512.size a ≤ S8x2x4096.size a
  hwx0_0 : ∀ i : grid0.Coords, EltTy.bits .f32 = 32 ∨ (Rect.block (s := S8x2x4096) S1x2x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x4096.size a ≤ S8x4096x4096.size a
  hwx0_1 : ∀ i : grid0.Coords, EltTy.bits .f32 = 32 ∨ (Rect.block (s := S8x4096x4096) S1x512x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2x4096.size a ≤ S8x2x4096.size a
  hwx0_2 : ∀ i : grid0.Coords, EltTy.bits .f32 = 32 ∨ (Rect.block (s := S8x2x4096) S1x2x4096.size (cc0_transform_2 i) (hinb0_2 i)).WholeWords (EltTy.packing .f32)

variable [Facts₀]

def dot_S2x512_S512x4096_S2x4096_1_0_0_1_n_n : DotDims S2x512 S512x4096 S2x4096 where
  lhsContracting := [1]
  rhsContracting := [0]
  lhsNonContracting := [0]
  rhsNonContracting := [1]
  lhsBatch := []
  rhsBatch := []
  wf := dot_S2x512_S512x4096_S2x4096_1_0_0_1_n_n_wf
def gather_S8x2x64x64_S15x8x1_S8x2x15x8x64_014_2_n_n_2_2_82164 : GatherDims S8x2x64x64 S15x8x1 S8x2x15x8x64 where
  offsetDims := [0, 1, 4]
  collapsedSliceDims := [2]
  operandBatchingDims := []
  startIndicesBatchingDims := []
  startIndexMap := [2]
  indexVectorDim := 2
  sliceSizes := ![8, 2, 1, 64]
  wf := gather_S8x2x64x64_S15x8x1_S8x2x15x8x64_014_2_n_n_2_2_82164_wf
def gather_S8x2x15x8x64_S15x8x1_S8x2x15x8x15x8_0123_4_n_n_4_2_821581 : GatherDims S8x2x15x8x64 S15x8x1 S8x2x15x8x15x8 where
  offsetDims := [0, 1, 2, 3]
  collapsedSliceDims := [4]
  operandBatchingDims := []
  startIndicesBatchingDims := []
  startIndexMap := [4]
  indexVectorDim := 2
  sliceSizes := ![8, 2, 15, 8, 1]
  wf := gather_S8x2x15x8x64_S15x8x1_S8x2x15x8x15x8_0123_4_n_n_4_2_821581_wf

abbrev win0_0 : Pipeline.Window sig grid0 :=
  Pipeline.Window.ofSpec (Memref.whole main_v1) S1x2x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8x4096x4096 : Shape := ⟨3, ![8, 4096, 4096]⟩
abbrev S8x64x64x2 : Shape := ⟨4, ![8, 64, 64, 2]⟩
abbrev S8x2x64x64 : Shape := ⟨4, ![8, 2, 64, 64]⟩
abbrev S8x2x4096 : Shape := ⟨3, ![8, 2, 4096]⟩
abbrev S15 : Shape := ⟨1, ![15]⟩
abbrev S_ : Shape := ⟨0, ![]⟩
abbrev S15x1 : Shape := ⟨2, ![15, 1]⟩
abbrev S8 : Shape := ⟨1, ![8]⟩
abbrev S1x8 : Shape := ⟨2, ![1, 8]⟩
abbrev S15x8 : Shape := ⟨2, ![15, 8]⟩
abbrev S15x8x1 : Shape := ⟨3, ![15, 8, 1]⟩
abbrev S8x2x15x8x64 : Shape := ⟨5, ![8, 2, 15, 8, 64]⟩
abbrev S8x2x15x8x15x8 : Shape := ⟨6, ![8, 2, 15, 8, 15, 8]⟩
abbrev S8x2x15x15x8x8 : Shape := ⟨6, ![8, 2, 15, 15, 8, 8]⟩
abbrev S8x2x225x64 : Shape := ⟨4, ![8, 2, 225, 64]⟩
abbrev S8x2x225 : Shape := ⟨3, ![8, 2, 225]⟩
abbrev S8x2x225x1 : Shape := ⟨4, ![8, 2, 225, 1]⟩

abbrev nBuf : Space → Nat
  | .hbm => 59
  | .vmem => 0
  | .smem => 0
  | _ => 0

abbrev bufTy : (tb : Table) → Fin (tcTables nBuf tb) → BufTy
  | .hbm, ⟨0, _⟩ => ⟨S8x4096x4096, .f32⟩
  | .hbm, ⟨1, _⟩ => ⟨S8x64x64x2, .f32⟩
  | .hbm, ⟨2, _⟩ => ⟨S8x2x64x64, .f32⟩
  | .hbm, ⟨3, _⟩ => ⟨S8x2x4096, .f32⟩
  | .hbm, ⟨4, _⟩ => ⟨S8x2x4096, .f32⟩
  | .hbm, ⟨5, _⟩ => ⟨S8x2x64x64, .f32⟩
  | .hbm, ⟨6, _⟩ => ⟨S15, .i32⟩
  | .hbm, ⟨7, _⟩ => ⟨S_, .i32⟩
  | .hbm, ⟨8, _⟩ => ⟨S15, .i32⟩
  | .hbm, ⟨9, _⟩ => ⟨S15, .i32⟩
  | .hbm, ⟨10, _⟩ => ⟨S15, .i32⟩
  | .hbm, ⟨11, _⟩ => ⟨S_, .i32⟩
  | .hbm, ⟨12, _⟩ => ⟨S15, .i32⟩
  | .hbm, ⟨13, _⟩ => ⟨S15, .i32⟩
  | .hbm, ⟨14, _⟩ => ⟨S15x1, .i32⟩
  | .hbm, ⟨15, _⟩ => ⟨S8, .i32⟩
  | .hbm, ⟨16, _⟩ => ⟨S1x8, .i32⟩
  | .hbm, ⟨17, _⟩ => ⟨S15x8, .i32⟩
  | .hbm, ⟨18, _⟩ => ⟨S15x8, .i32⟩
  | .hbm, ⟨19, _⟩ => ⟨S15x8, .i32⟩
  | .hbm, ⟨20, _⟩ => ⟨S_, .i32⟩
  | .hbm, ⟨21, _⟩ => ⟨S15x8, .i32⟩
  | .hbm, ⟨22, _⟩ => ⟨S15x8, .i1⟩
  | .hbm, ⟨23, _⟩ => ⟨S_, .i32⟩
  | .hbm, ⟨24, _⟩ => ⟨S15x8, .i32⟩
  | .hbm, ⟨25, _⟩ => ⟨S15x8, .i32⟩
  | .hbm, ⟨26, _⟩ => ⟨S15x8, .i32⟩
  | .hbm, ⟨27, _⟩ => ⟨S15x8x1, .i32⟩
  | .hbm, ⟨28, _⟩ => ⟨S8x2x15x8x64, .f32⟩
  | .hbm, ⟨29, _⟩ => ⟨S15x1, .i32⟩
  | .hbm, ⟨30, _⟩ => ⟨S8, .i32⟩
  | .hbm, ⟨31, _⟩ => ⟨S1x8, .i32⟩
  | .hbm, ⟨32, _⟩ => ⟨S15x8, .i32⟩
  | .hbm, ⟨33, _⟩ => ⟨S15x8, .i32⟩
  | .hbm, ⟨34, _⟩ => ⟨S15x8, .i32⟩
  | .hbm, ⟨35, _⟩ => ⟨S_, .i32⟩
  | .hbm, ⟨36, _⟩ => ⟨S15x8, .i32⟩
  | .hbm, ⟨37, _⟩ => ⟨S15x8, .i1⟩
  | .hbm, ⟨38, _⟩ => ⟨S_, .i32⟩
  | .hbm, ⟨39, _⟩ => ⟨S15x8, .i32⟩
  | .hbm, ⟨40, _⟩ => ⟨S15x8, .i32⟩
  | .hbm, ⟨41, _⟩ => ⟨S15x8, .i32⟩
  | .hbm, ⟨42, _⟩ => ⟨S15x8x1, .i32⟩
  | .hbm, ⟨43, _⟩ => ⟨S8x2x15x8x15x8, .f32⟩
  | .hbm, ⟨44, _⟩ => ⟨S8x2x15x15x8x8, .f32⟩
  | .hbm, ⟨45, _⟩ => ⟨S8x2x225x64, .f32⟩
  | .hbm, ⟨46, _⟩ => ⟨S_, .f32⟩
  | .hbm, ⟨47, _⟩ => ⟨S8x2x225, .f32⟩
  | .hbm, ⟨48, _⟩ => ⟨S8x2x225x1, .f32⟩
  | .hbm, ⟨49, _⟩ => ⟨S_, .f32⟩
  | .hbm, ⟨50, _⟩ => ⟨S8x2x225x1, .f32⟩
  | .hbm, ⟨51, _⟩ => ⟨S8x2x225x1, .f32⟩
  | .hbm, ⟨52, _⟩ => ⟨S8x2x225x64, .f32⟩
  | .hbm, ⟨53, _⟩ => ⟨S8x2x225x64, .f32⟩
  | .hbm, ⟨54, _⟩ => ⟨S8x2x225x64, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | _, _ => ⟨S8x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_c_1 : Ref sig .tc := ⟨.hbm, 20, rfl⟩
abbrev main_v16 : Ref sig .tc := ⟨.hbm, 21, rfl⟩
abbrev main_v17 : Ref sig .tc := ⟨.hbm, 22, rfl⟩
abbrev main_c_2 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_c_3 : Ref sig .tc := ⟨.hbm, 35, rfl⟩
abbrev main_v29 : Ref sig .tc := ⟨.hbm, 36, rfl⟩
abbrev main_v30 : Ref sig .tc := ⟨.hbm, 37, rfl⟩
abbrev main_c_4 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_cst : Ref sig .tc := ⟨.hbm, 46, rfl⟩
abbrev main_v38 : Ref sig .tc := ⟨.hbm, 47, rfl⟩
abbrev main_v39 : Ref sig .tc := ⟨.hbm, 48, rfl⟩
abbrev main_cst_5 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_cst_6 : Ref sig .tc := ⟨.hbm, 55, rfl⟩
abbrev main_v45 : Ref sig .tc := ⟨.hbm, 56, rfl⟩
abbrev main_cst_7 : Ref sig .tc := ⟨.hbm, 57, rfl⟩
abbrev main_v46 : Ref sig .tc := ⟨.hbm, 58, rfl⟩

abbrev nD : Nat := 1
abbrev τ : Topo := Topo.v7x

variable {F : FTy → Type} [FloatOps F]

class Facts₀ : Prop where
  transposes_S8x64x64x2_S8x2x64x64_0_3_1_2 : S8x64x64x2.Transposes [0, 3, 1, 2] S8x2x64x64
  shapeCasts_S8x2x64x64_S8x2x4096 : S8x2x64x64.ShapeCasts S8x2x4096
  shapeCasts_S8x2x4096_S8x2x64x64 : S8x2x4096.ShapeCasts S8x2x64x64
  bcast_S_S15 : S_.BroadcastsInDim S15 (![] : Fin 0 → Fin S15.rank)
  bcast_S15_S15x1_0 : S15.BroadcastsInDim S15x1 (![0] : Fin 1 → Fin S15x1.rank)
  bcast_S8_S1x8_1 : S8.BroadcastsInDim S1x8 (![1] : Fin 1 → Fin S1x8.rank)
  bcast_S15x1_S15x8_0_1 : S15x1.BroadcastsInDim S15x8 (![0, 1] : Fin 2 → Fin S15x8.rank)
  bcast_S1x8_S15x8_0_1 : S1x8.BroadcastsInDim S15x8 (![0, 1] : Fin 2 → Fin S15x8.rank)
  bcast_S_S15x8 : S_.BroadcastsInDim S15x8 (![] : Fin 0 → Fin S15x8.rank)
  bcast_S15x8_S15x8x1_0_1 : S15x8.BroadcastsInDim S15x8x1 (![0, 1] : Fin 2 → Fin S15x8x1.rank)
  transposes_S8x2x15x8x15x8_S8x2x15x15x8x8_0_1_2_4_3_5 : S8x2x15x8x15x8.Transposes [0, 1, 2, 4, 3, 5] S8x2x15x15x8x8
  shapeCasts_S8x2x15x15x8x8_S8x2x225x64 : S8x2x15x15x8x8.ShapeCasts S8x2x225x64
  reducesTo_S8x2x225x64_S8x2x225_d3 : S8x2x225x64.ReducesTo [3] S8x2x225
  h_S_ : 0 < S_.numel
  bcast_S8x2x225_S8x2x225x1_0_1_2 : S8x2x225.BroadcastsInDim S8x2x225x1 (![0, 1, 2] : Fin 3 → Fin S8x2x225x1.rank)
  bcast_S_S8x2x225x1 : S_.BroadcastsInDim S8x2x225x1 (![] : Fin 0 → Fin S8x2x225x1.rank)
  bcast_S8x2x225x1_S8x2x225x64_0_1_2_3 : S8x2x225x1.BroadcastsInDim S8x2x225x64 (![0, 1, 2, 3] : Fin 4 → Fin S8x2x225x64.rank)
  reducesTo_S8x2x225x64_S_d0_1_2_3 : S8x2x225x64.ReducesTo [0, 1, 2, 3] S_
  dot_S8x2x4096_S8x4096x4096_S8x2x4096_2_1_1_2_0_0_wf : DotDims.WF S8x2x4096 S8x4096x4096 S8x2x4096 [2] [1] [1] [2] [0] [0]
  gather_S8x2x64x64_S15x8x1_S8x2x15x8x64_014_2_n_n_2_2_82164_wf : GatherDims.WF S8x2x64x64 S15x8x1 S8x2x15x8x64 [0, 1, 4] [2] [] [2] [] 2 ![8, 2, 1, 64]
  gather_S8x2x15x8x64_S15x8x1_S8x2x15x8x15x8_0123_4_n_n_4_2_821581_wf : GatherDims.WF S8x2x15x8x64 S15x8x1 S8x2x15x8x15x8 [0, 1, 2, 3] [4] [] [4] [] 2 ![8, 2, 15, 8, 1]

variable [Facts₀]

def dot_S8x2x4096_S8x4096x4096_S8x2x4096_2_1_1_2_0_0 : DotDims S8x2x4096 S8x4096x4096 S8x2x4096 where
  lhsContracting := [2]
  rhsContracting := [1]
  lhsNonContracting := [1]
  rhsNonContracting := [2]
  lhsBatch := [0]
  rhsBatch := [0]
  wf := dot_S8x2x4096_S8x4096x4096_S8x2x4096_2_1_1_2_0_0_wf
def gather_S8x2x64x64_S15x8x1_S8x2x15x8x64_014_2_n_n_2_2_82164 : GatherDims S8x2x64x64 S15x8x1 S8x2x15x8x64 where
  offsetDims := [0, 1, 4]
  collapsedSliceDims := [2]
  operandBatchingDims := []
  startIndicesBatchingDims := []
  startIndexMap := [2]
  indexVectorDim := 2
  sliceSizes := ![8, 2, 1, 64]
  wf := gather_S8x2x64x64_S15x8x1_S8x2x15x8x64_014_2_n_n_2_2_82164_wf
def gather_S8x2x15x8x64_S15x8x1_S8x2x15x8x15x8_0123_4_n_n_4_2_821581 : GatherDims S8x2x15x8x64 S15x8x1 S8x2x15x8x15x8 where
  offsetDims := [0, 1, 2, 3]
  collapsedSliceDims := [4]
  operandBatchingDims := []
  startIndicesBatchingDims := []
  startIndexMap := [4]
  indexVectorDim := 2
  sliceSizes := ![8, 2, 15, 8, 1]
  wf := gather_S8x2x15x8x64_S15x8x1_S8x2x15x8x15x8_0123_4_n_n_4_2_821581_wf

class Facts : Prop extends Facts₀ where

variable [Facts]
-- ==== Proof.BlockSum.lean ====
/-
  A sum over the 4096 positions of a contracted axis, taken eight blocks of 512 positions at a time.

  The accumulator of a K-blocked product holds, after block `n`, the shares of blocks `0 … n` added up in block
  order; each share is the sum over the block's own 512 positions. Addition in a commutative monoid (the
  extended reals are one) may be regrouped freely, so after the eighth block the accumulator is the plain sum
  over all 4096 positions. Nothing here asks the summands to be finite.
-/
import Mathlib.Algebra.BigOperators.Fin
import Mathlib.Logic.Equiv.Fin.Basic

open scoped BigOperators

namespace Cert.BlockSum

/-- Position `k` of the contracted axis, wrapped into range (every position used below is in range already). -/
def pos (k : ℕ) : Fin 4096 := ⟨k % 4096, Nat.mod_lt _ (by decide)⟩

theorem pos_val_of_lt {k : ℕ} (h : k < 4096) : (pos k).val = k := Nat.mod_eq_of_lt h

theorem pos_of_fin (k : Fin 4096) : pos k.val = k := Fin.ext (Nat.mod_eq_of_lt k.isLt)

variable {β : Type*} [AddCommMonoid β]

/-- Block `j`'s share of the sum of `T`: positions `512 j … 512 j + 511`. -/
def share (T : Fin 4096 → β) (j : ℕ) : β := ∑ k : Fin 512, T (pos (512 * j + k.val))

/-- The shares of blocks `0 … n`, added in block order. -/
def running (T : Fin 4096 → β) (n : ℕ) : β := ∑ j ∈ Finset.range (n + 1), share T j

theorem running_zero (T : Fin 4096 → β) : running T 0 = share T 0 := by
  unfold running; rw [Finset.sum_range_one]

theorem running_succ (T : Fin 4096 → β) (n : ℕ) : running T (n + 1) = running T n + share T (n + 1) := by
  unfold running; rw [Finset.sum_range_succ]

/-- Eight blocks of 512 are all 4096 positions, each once: position `512 j + k` is the pair `(j, k)`. -/
theorem running_seven (T : Fin 4096 → β) : running T 7 = ∑ k : Fin 4096, T k := by
  unfold running share
  rw [← Fin.sum_univ_eq_sum_range (fun j => ∑ k : Fin 512, T (pos (512 * j + k.val))) 8]
  rw [← Fintype.sum_prod_type' (f := fun (j : Fin 8) (k : Fin 512) => T (pos (512 * j.val + k.val)))]
  rw [← Equiv.sum_comp (finProdFinEquiv (m := 8) (n := 512)) (fun k : Fin (8 * 512) => T k)]
  refine Finset.sum_congr rfl fun x _ => congrArg T (Fin.ext ?_)
  have h1 := x.1.isLt
  have h2 := x.2.isLt
  show (512 * x.1.val + x.2.val) % 4096 = x.2.val + 512 * x.1.val
  rw [Nat.mod_eq_of_lt (by omega)]
  omega

end Cert.BlockSum
-- ==== Proof.LibPlainDot.lean ====
/-
  A plain matrix product `[M, K] × [K, N] → [M, N]` — the left operand's columns contracted with the right operand's
  rows, no batch axis — read at the output entry `(p, q)` at the ideal values: the sum over `k : Fin K` of
  `l (p, k) * r (k, q)`. The device's `matmul` into the zero accumulator and the host's `dot_general` are both
  this sum, whatever record spells the dimension numbers, as long as it is the plain one (`hd`, which a printed
  record meets by `rfl`); and nothing depends on the sizes, so one statement serves a block of rows and the
  whole array alike.
  Beside it: a sum over `Fin (a + b)` of a function that reads its first `a` positions from one family and the
  rest from another is the two families' sums — what a product with two column blocks joined side by side is.
-/
import Idealize.ShloMosaic.Lib.ValueIdx
import Idealize.ShloMosaic.PureOps.Ideal.Laws
import Mathlib.Algebra.BigOperators.Fin

namespace Cert.PlainDot

open Idealize.ShloMosaic Idealize.ShloMosaic.ValueIdx

variable {M K N : ℕ}

/-- The left operand index of the plain product at output `(p, q)` and contraction position `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ =>
    show ((DotDims.plain M K N).lhsIdx (ix2 p q) _ 0).val = p.val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ =>
    exact ((DotDims.plain M K N).lhsIdx_val_of_single (cl := 1) rfl (ix2 p q) _).trans hk

/-- The right operand index is `(k, q)`. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ =>
    exact ((DotDims.plain M K N).rhsIdx_val_of_single (cr := 0) rfl (ix2 p q) _).trans hk
  | ⟨1, _⟩ =>
    show ((DotDims.plain M K N).rhsIdx (ix2 p q) _ 1).val = q.val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- The contraction sum of the plain product, re-indexed by the one contracted coordinate. -/
theorem plain_sum {β : Type*} [AddCommMonoid β] (f : (⟨2, ![M, K]⟩ : Shape).Idx → (⟨2, ![K, N]⟩ : Shape).Idx → β)
    (p : Fin M) (q : Fin N) :
    ∑ k : (DotDims.plain M K N).contr.Idx,
        f ((DotDims.plain M K N).lhsIdx (ix2 p q) k) ((DotDims.plain M K N).rhsIdx (ix2 p q) k)
      = ∑ k : Fin K, f (ix2 p k) (ix2 k q) := by
  rw [← Equiv.sum_comp (contrEquiv1 (DotDims.plain M K N) K rfl rfl).symm]
  refine Finset.sum_congr rfl fun k _ => ?_
  rw [plain_lhsIdx, plain_rhsIdx]

variable {φ₁ φ₂ : FTy}

/-- The device's matrix product into the zero accumulator, at `(p, q)`. -/
theorem matmul_zero_apply (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂)
    (p : Fin M) (q : Fin N) :
    matmul d prec l r (constant ⟨2, ![M, N]⟩ .f32 0x00000000#32) (ix2 p q) = ∑ k : Fin K, l (ix2 p k) * r (ix2 k q) := by
  subst hd
  simp only [matmul]
  rw [Ideal.matmul_constant_zero_apply]
  exact plain_sum (fun a b => l a * r b) p q

/-- The host's `dot_general`, at `(p, q)`. -/
theorem dotGeneral_apply (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂)
    (p : Fin M) (q : Fin N) :
    Host.dotGeneral d prec l r (ix2 p q) = ∑ k : Fin K, l (ix2 p k) * r (ix2 k q) := by
  subst hd
  simp only [Host.dotGeneral]
  rw [Ideal.dotGeneral_apply]
  exact plain_sum (fun a b => l a * r b) p q

/-- A sum over `Fin (a + b)` of a function given piecewise — below `a` by `f`, from `a` on by `g` — is the sum of
    `f` plus the sum of `g`. -/
theorem sum_two_blocks {β : Type*} [AddCommMonoid β] {a b n : ℕ} (hn : n = a + b) (F : Fin n → β) (f : Fin a → β) (g : Fin b → β)
    (hf : ∀ k : Fin a, F ⟨k.val, by have := k.isLt; omega⟩ = f k)
    (hg : ∀ k : Fin b, F ⟨a + k.val, by have := k.isLt; omega⟩ = g k) :
    ∑ k : Fin n, F k = ∑ k : Fin a, f k + ∑ k : Fin b, g k := by
  subst hn
  rw [Fin.sum_univ_add]
  refine congrArg₂ (· + ·) (Finset.sum_congr rfl fun k _ => ?_) (Finset.sum_congr rfl fun k _ => ?_)
  · exact hf k
  · exact hg k

end Cert.PlainDot
-- ==== Proof.Payload.lean ====
/-
  The three values the kernel body stores, read at one entry, at the ideal values.

  * The reset stores the zero block: every entry is `0`.
  * The update stores, at `(p, q)`, the accumulator's entry plus the product of row `p` of the 2 × 512 block of
    the left operand with column `q` of the 512 × 4096 block of the right operand — a sum over the block's 512
    positions. The two casts to bf16 in front of the product are the identity on extended reals, and the
    blocks' leading unit axis is dropped by a reshape that keeps the row-major position.
  * The write-out stores the accumulator under a new leading unit axis: entry `(0, p, q)` is entry `(p, q)`.
-/
import proofs.«175463_j84945863180964_1_alg».proof.Proof.Gen.KernelIdeal.Skeleton
import proofs.«175463_j84945863180964_1_alg».proof.Proof.LibPlainDot
import Idealize.ShloMosaic.Lib.Pipeline.Value
import Idealize.ShloMosaic.Lib.ValueIdx

noncomputable section

open scoped BigOperators

namespace Cert.KernelIdeal.Payload

open Idealize.ShloMosaic Idealize.ShloMosaic.ValueIdx Cert.KernelIdeal Cert.KernelIdeal.Gen

/-- Row `p`, position `k` of the left block with its unit axis dropped. -/
theorem lhs_block_apply (x0 : Vec Ideal S1x2x512 .f32) (p : Fin 2) (k : Fin 512) :
    shapeCast S2x512 x0 shapeCasts_S1x2x512_S2x512 (ix2 p k) = x0 (ix3 0 p k) :=
  shapeCast_apply x0 shapeCasts_S1x2x512_S2x512 (ix2 p k) (ix3 0 p k) (by
    rw [Shape.rowMajor_val_three, Shape.rowMajor_val_two]
    show ((0 : ℕ) * 2 + p.val) * 512 + k.val = p.val * 512 + k.val
    omega)

/-- Position `k`, column `q` of the right block with its unit axis dropped. -/
theorem rhs_block_apply (x1 : Vec Ideal S1x512x4096 .f32) (k : Fin 512) (q : Fin 4096) :
    shapeCast S512x4096 x1 shapeCasts_S1x512x4096_S512x4096 (ix2 k q) = x1 (ix3 0 k q) :=
  shapeCast_apply x1 shapeCasts_S1x512x4096_S512x4096 (ix2 k q) (ix3 0 k q) (by
    rw [Shape.rowMajor_val_three, Shape.rowMajor_val_two]
    show ((0 : ℕ) * 512 + k.val) * 4096 + q.val = k.val * 4096 + q.val
    omega)

/-- The reset's block is zero everywhere. -/
theorem reset_apply (j : S2x4096.Idx) : k0_pay1 (F := Ideal) j = 0 := by
  unfold k0_pay1
  rw [shapeCast_self]
  show Ideal.ofBits .f32 0x00000000#32 = 0
  exact Ideal.ofBits_zero_f32

/-- The update at `(p, q)`: the accumulator there plus the block's share of the product. -/
theorem update_apply (x0 : Vec Ideal S1x2x512 .f32) (x1 : Vec Ideal S1x512x4096 .f32) (acc : Vec Ideal S2x4096 .f32)
    (p : Fin 2) (q : Fin 4096) :
    k0_pay2 (F := Ideal) x0 x1 acc (ix2 p q) = acc (ix2 p q) + ∑ k : Fin 512, x0 (ix3 0 p k) * x1 (ix3 0 k q) := by
  unfold k0_pay2
  rw [shapeCast_self]
  show acc (ix2 p q) + matmul (F := Ideal) dot_S2x512_S512x4096_S2x4096_1_0_0_1_n_n none
      (truncf (F := Ideal) .bf16 (shapeCast S2x512 x0 shapeCasts_S1x2x512_S2x512) bitsLt_bf16_f32)
      (truncf (F := Ideal) .bf16 (shapeCast S512x4096 x1 shapeCasts_S1x512x4096_S512x4096) bitsLt_bf16_f32)
      (constant (F := Ideal) S2x4096 .f32 0x00000000#32) (ix2 p q) = _
  rw [Cert.PlainDot.matmul_zero_apply dot_S2x512_S512x4096_S2x4096_1_0_0_1_n_n rfl none _ _ p q]
  refine congrArg (acc (ix2 p q) + ·) (Finset.sum_congr rfl fun k _ => ?_)
  show shapeCast S2x512 x0 shapeCasts_S1x2x512_S2x512 (ix2 p k) * shapeCast S512x4096 x1 shapeCasts_S1x512x4096_S512x4096 (ix2 k q) = _
  rw [lhs_block_apply, rhs_block_apply]

/-- The write-out at `(0, p, q)` is the accumulator at `(p, q)`. -/
theorem writeout_apply (v : Vec Ideal S2x4096 .f32) (p : Fin 2) (q : Fin 4096) :
    k0_pay3 (F := Ideal) v (ix3 0 p q) = v (ix2 p q) := by
  unfold k0_pay3
  exact shapeCast_apply v shapeCasts_S2x4096_S1x2x4096 (ix3 0 p q) (ix2 p q) (by
    rw [Shape.rowMajor_val_three, Shape.rowMajor_val_two]
    show p.val * 4096 + q.val = ((0 : ℕ) * 2 + p.val) * 4096 + q.val
    omega)

end Cert.KernelIdeal.Payload

end
-- ==== Proof.Pieces.lean ====
/-
  What each control case of the kernel body leaves behind, as a value of what it loaded.

  The body has three cases, told apart by the position `k` of the grid point along the contracted axis:
  the first block (`k = 0`: reset the accumulator, then update it), a middle block (update only) and the last block
  (`k = 7`: update, then write the accumulator out). Every store covers its whole buffer from offset zero, so what
  a buffer ends up holding is the value its last store wrote; a load that follows a covering store in the same
  case reads that store's value back. Hence:

  * first block: the accumulator ends at the update of the two input blocks over the ZERO block;
  * middle and last block: at the update of the two input blocks over what the point before left;
  * last block: the output block ends at that same updated accumulator, under a new leading unit axis.

  These hold for any reading of the floats.
-/
import proofs.«175463_j84945863180964_1_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.ShloMosaic.Tactic Idealize.SL.Sem
open Cert.KernelIdeal Cert.KernelIdeal.Gen

variable {F : FTy → Type} [FloatOps F]

theorem zeros2 : (![0, 0] : Fin 2 → Nat) = fun _ => 0 := funext fun a => by fin_cases a <;> rfl
theorem zeros3 : (![0, 0, 0] : Fin 3 → Nat) = fun _ => 0 := funext fun a => by fin_cases a <;> rfl

/-- First block: the accumulator after the reset and the update. -/
theorem acc_first (c : Dev nD) (i : grid0.Coords) (arg2 : Memref sig .tc .vmem S1x2x512 .f32) (harg2 : arg2.IsWhole) (arg3 : Memref sig .tc .vmem S1x512x4096 .f32) (harg3 : arg3.IsWhole) (arg4 : Memref sig .tc .vmem S1x2x4096 .f32) (harg4 : arg4.IsWhole) (arg5 : Memref sig .tc .vmem S2x4096 .f32) (harg5 : arg5.IsWhole) (hc0 : cond0_0 i) (hc1 : ¬cond0_1 i)
    (x0 : Vec F S1x2x512 .f32) (x1 : Vec F S1x512x4096 .f32) :
    sout0_A_0 c i arg2 harg2 arg3 harg3 arg4 harg4 arg5 harg5 hc0 hc1 x0 x1 = k0_pay2 x0 x1 (k0_pay1 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S2x4096) zeros2]
  simp only [View.readAt_eq_ld, harg2.read_unread, harg3.read_unread, View.ld_unit_zero (S := S1x2x512) zeros3,
    View.ld_unit_zero (S := S1x512x4096) zeros3, View.readCov_unit_zero (S := S2x4096) _ zeros2]

/-- Middle block: the accumulator after the update. -/
theorem acc_middle (c : Dev nD) (i : grid0.Coords) (arg2 : Memref sig .tc .vmem S1x2x512 .f32) (harg2 : arg2.IsWhole) (arg3 : Memref sig .tc .vmem S1x512x4096 .f32) (harg3 : arg3.IsWhole) (arg4 : Memref sig .tc .vmem S1x2x4096 .f32) (harg4 : arg4.IsWhole) (arg5 : Memref sig .tc .vmem S2x4096 .f32) (harg5 : arg5.IsWhole) (hc0 : ¬cond0_0 i) (hc1 : ¬cond0_1 i)
    (x0 : Vec F S1x2x512 .f32) (x1 : Vec F S1x512x4096 .f32) (xs0 : Vec F S2x4096 .f32) :
    sout0_B_0 c i arg2 harg2 arg3 harg3 arg4 harg4 arg5 harg5 hc0 hc1 x0 x1 xs0 = k0_pay2 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero (S := S2x4096) zeros2]
  simp only [View.readAt_eq_ld, harg2.read_unread, harg3.read_unread, harg5.read_unread,
    View.ld_unit_zero (S := S1x2x512) zeros3, View.ld_unit_zero (S := S1x512x4096) zeros3,
    View.ld_unit_zero (S := S2x4096) zeros2]

/-- Last block: the accumulator after the update. -/
theorem acc_last (c : Dev nD) (i : grid0.Coords) (arg2 : Memref sig .tc .vmem S1x2x512 .f32) (harg2 : arg2.IsWhole) (arg3 : Memref sig .tc .vmem S1x512x4096 .f32) (harg3 : arg3.IsWhole) (arg4 : Memref sig .tc .vmem S1x2x4096 .f32) (harg4 : arg4.IsWhole) (arg5 : Memref sig .tc .vmem S2x4096 .f32) (harg5 : arg5.IsWhole) (hc0 : ¬cond0_0 i) (hc1 : cond0_1 i)
    (x0 : Vec F S1x2x512 .f32) (x1 : Vec F S1x512x4096 .f32) (xs0 : Vec F S2x4096 .f32) :
    sout0_C_0 c i arg2 harg2 arg3 harg3 arg4 harg4 arg5 harg5 hc0 hc1 x0 x1 xs0 = k0_pay2 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero (S := S2x4096) zeros2]
  simp only [View.readAt_eq_ld, harg2.read_unread, harg3.read_unread, harg5.read_unread,
    View.ld_unit_zero (S := S1x2x512) zeros3, View.ld_unit_zero (S := S1x512x4096) zeros3,
    View.ld_unit_zero (S := S2x4096) zeros2]

/-- Last block: the output block is the updated accumulator under a leading unit axis. -/
theorem out_last (c : Dev nD) (i : grid0.Coords) (arg2 : Memref sig .tc .vmem S1x2x512 .f32) (harg2 : arg2.IsWhole) (arg3 : Memref sig .tc .vmem S1x512x4096 .f32) (harg3 : arg3.IsWhole) (arg4 : Memref sig .tc .vmem S1x2x4096 .f32) (harg4 : arg4.IsWhole) (arg5 : Memref sig .tc .vmem S2x4096 .f32) (harg5 : arg5.IsWhole) (hc0 : ¬cond0_0 i) (hc1 : cond0_1 i)
    (x0 : Vec F S1x2x512 .f32) (x1 : Vec F S1x512x4096 .f32) (xs0 : Vec F S2x4096 .f32) :
    out0_C_2 c i arg2 harg2 arg3 harg3 arg4 harg4 arg5 harg5 hc0 hc1 x0 x1 xs0 = k0_pay3 (k0_pay2 x0 x1 xs0) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero (S := S1x2x4096) zeros3]
  simp only [View.readAt_eq_ld, harg2.read_unread, harg3.read_unread, harg5.read_unread,
    View.ld_unit_zero (S := S1x2x512) zeros3, View.ld_unit_zero (S := S1x512x4096) zeros3,
    View.ld_unit_zero (S := S2x4096) zeros2, View.readCov_unit_zero (S := S2x4096) _ zeros2]

end Cert.KernelIdeal.Pieces

end
-- ==== Proof.Accumulate.lean ====
/-
  The kernel's result array is the batched product of the two arrays the region reads.

  The grid has 64 points; point `t` works on batch `t / 8` and on block `t % 8` of the contracted axis. The left
  window's block at `t` is rows `(t / 8, ·, 512 (t % 8) + ·)` of the left array, the right window's block rows
  `(t / 8, 512 (t % 8) + ·, ·)` of the right array. By induction on the point, the accumulator after point `t`
  holds at `(p, q)` the shares of blocks `0 … t % 8` of batch `t / 8`, added in block order: the first block of a
  batch starts from zero, every later one adds its share to what the point before left. At the eighth block
  that is the whole sum over the 4096 positions (regrouping a sum of extended reals is free), and that is what
  the point writes out as block `t / 8` of the result. The eight written blocks tile the result array.
-/
import proofs.«175463_j84945863180964_1_alg».proof.Proof.BlockSum
import proofs.«175463_j84945863180964_1_alg».proof.Proof.Payload
import proofs.«175463_j84945863180964_1_alg».proof.Proof.Pieces
import Idealize.ShloMosaic.Lib.Pipeline.Value

noncomputable section

open scoped BigOperators

namespace Cert.KernelIdeal.Acc

open Idealize.ShloMosaic Idealize.ShloMosaic.TcCoe Idealize.ShloMosaic.ValueIdx Idealize.SL.Sem
open Idealize.ShloMosaic.Pipeline (Dat)
open Cert.KernelIdeal Cert.KernelIdeal.Gen Cert.BlockSum

variable (m : (ℓ : Loc nD τ sig) → Buf (Elt Ideal) ℓ) (ρ : Dev nD → PrngReg)

/-- The left array as the region finds it (the reshaped, transposed second argument), -/
abbrev gArr (c : Dev nD) : Vec Ideal S8x2x4096 .f32 := V m c main_v1
/-- the right array (the first argument), -/
abbrev aArr (c : Dev nD) : Vec Ideal S8x4096x4096 .f32 := V m c main_arg0
/-- and their blocks at a grid point. -/
abbrev gBlk (c : Dev nD) (t : Fin cfg0.N) : Vec Ideal S1x2x512 .f32 := iblk m c 0 t
abbrev aBlk (c : Dev nD) (t : Fin cfg0.N) : Vec Ideal S1x512x4096 .f32 := iblk m c 1 t

/-- The batch a grid point works on. -/
def batch (n : ℕ) : Fin 8 := ⟨n / 8 % 8, Nat.mod_lt _ (by decide)⟩

/-- The products summed for entry `(b, p, q)` of the result, by position of the contracted axis. -/
def term (c : Dev nD) (b : Fin 8) (p : Fin 2) (q : Fin 4096) : Fin 4096 → EReal :=
  fun k => gArr m c (ix3 b p k) * aArr m c (ix3 b k q)

/-- The batched product: entry `(b, p, q)` is the sum over `k` of `g (b, p, k) · a (b, k, q)`. -/
def product (g : Vec Ideal S8x2x4096 .f32) (a : Vec Ideal S8x4096x4096 .f32) : Vec Ideal S8x2x4096 .f32 :=
  fun i => ∑ k : Fin 4096, g (ix3 (i 0) (i 1) k) * a (ix3 (i 0) k (i 2))

/-- The printed index maps at every grid point, decided once over the grid. -/
theorem index_facts : ∀ t : Fin cfg0.N,
    win0_0.index t (0 : Fin 3) = t.val / 8 ∧ win0_0.index t (1 : Fin 3) = 0 ∧ win0_0.index t (2 : Fin 3) = t.val % 8
    ∧ win0_1.index t (0 : Fin 3) = t.val / 8 ∧ win0_1.index t (1 : Fin 3) = t.val % 8 ∧ win0_1.index t (2 : Fin 3) = 0
    ∧ win0_2.index t (0 : Fin 3) = t.val / 8 ∧ win0_2.index t (1 : Fin 3) = 0 ∧ win0_2.index t (2 : Fin 3) = 0 :=
  (by decide +kernel : ∀ t : Fin grid0.N, _)

/-- The left block at point `t`: batch `t / 8`, the same row, position `512 (t % 8) + ·`. -/
theorem gBlk_apply (c : Dev nD) (t : Fin cfg0.N) (y : S1x2x512.Idx) :
    gBlk m c t y = gArr m c (ix3 (batch t.val) (y 1) (pos (512 * (t.val % 8) + (y 2).val))) := by
  obtain ⟨e0, e1, e2, -⟩ := index_facts t
  have hN : t.val < 64 := lt_of_lt_of_eq t.isLt (show cfg0.N = 64 from N_0)
  have h0 : (y 0).val < 1 := (y 0).isLt
  have h2 : (y 2).val < 512 := (y 2).isLt
  show V m c main_v1 (((cfg0.win 0).blk t).view.emb y) = V m c main_v1 _
  refine congrArg (V m c main_v1) (funext fun a => Fin.ext ?_)
  match a with
  | ⟨0, _⟩ => show win0_0.index t (0 : Fin 3) * 1 + 1 * (y 0).val = t.val / 8 % 8; omega
  | ⟨1, _⟩ => show win0_0.index t (1 : Fin 3) * 2 + 1 * (y 1).val = (y 1).val; omega
  | ⟨2, _⟩ => show win0_0.index t (2 : Fin 3) * 512 + 1 * (y 2).val = (512 * (t.val % 8) + (y 2).val) % 4096; omega

/-- The right block at point `t`: batch `t / 8`, position `512 (t % 8) + ·`, the same column. -/
theorem aBlk_apply (c : Dev nD) (t : Fin cfg0.N) (y : S1x512x4096.Idx) :
    aBlk m c t y = aArr m c (ix3 (batch t.val) (pos (512 * (t.val % 8) + (y 1).val)) (y 2)) := by
  obtain ⟨-, -, -, e0, e1, e2, -⟩ := index_facts t
  have hN : t.val < 64 := lt_of_lt_of_eq t.isLt (show cfg0.N = 64 from N_0)
  have h0 : (y 0).val < 1 := (y 0).isLt
  have h1 : (y 1).val < 512 := (y 1).isLt
  show V m c main_arg0 (((cfg0.win 1).blk t).view.emb y) = V m c main_arg0 _
  refine congrArg (V m c main_arg0) (funext fun a => Fin.ext ?_)
  match a with
  | ⟨0, _⟩ => show win0_1.index t (0 : Fin 3) * 1 + 1 * (y 0).val = t.val / 8 % 8; omega
  | ⟨1, _⟩ => show win0_1.index t (1 : Fin 3) * 512 + 1 * (y 1).val = (512 * (t.val % 8) + (y 1).val) % 4096; omega
  | ⟨2, _⟩ => show win0_1.index t (2 : Fin 3) * 4096 + 1 * (y 2).val = (y 2).val; omega

/-- The product of the two blocks at point `t`, at `(p, q)`, is block `t % 8`'s share of entry `(t / 8, p, q)`. -/
theorem block_share (c : Dev nD) (t : Fin cfg0.N) (p : Fin 2) (q : Fin 4096) :
    ∑ k : Fin 512, gBlk m c t (ix3 0 p k) * aBlk m c t (ix3 0 k q) = share (term m c (batch t.val) p q) (t.val % 8) := by
  unfold share term
  refine Finset.sum_congr rfl fun k _ => ?_
  rw [gBlk_apply, aBlk_apply]

/-- THE ACCUMULATOR after point `n`: the shares of blocks `0 … n % 8` of batch `n / 8`, in block order. -/
theorem acc_eq (c : Dev nD) : ∀ (n : ℕ) (h : n < cfg0.N) (p : Fin 2) (q : Fin 4096),
    (outsAt0 m c n h).2 (ix2 p q) = running (term m c (batch n) p q) (n % 8)
  | 0, h, p, q => by
    have h1 : ¬(0 : ℕ) % 8 = 7 := by decide
    rw [outsAt0_A m c ⟨0, h⟩ rfl h1]
    dsimp only
    refine (congrFun (Pieces.acc_first (F := Ideal) c (grid0.coords ⟨0, h⟩) (ms0_0 ⟨0, h⟩) (hs0_0 ⟨0, h⟩) (ms0_1 ⟨0, h⟩) (hs0_1 ⟨0, h⟩)
      (ms0_2 ⟨0, h⟩) (hs0_2 ⟨0, h⟩) scM0_0 (Memref.isWhole_whole _) ((hcond0_0 ⟨0, h⟩).mpr rfl)
      (fun h' => h1 ((hcond0_1 ⟨0, h⟩).mp h')) (gBlk m c ⟨0, h⟩) (aBlk m c ⟨0, h⟩)) (ix2 p q)).trans ?_
    rw [Payload.update_apply, Payload.reset_apply, zero_add, block_share m c ⟨0, h⟩ p q]
    exact (running_zero _).symm
  | n + 1, h, p, q => by
    have hN : n + 1 < 64 := lt_of_lt_of_eq h (show cfg0.N = 64 from N_0)
    by_cases h0 : (n + 1) % 8 = 0
    · have h1 : ¬(n + 1) % 8 = 7 := by omega
      rw [outsAt0_A m c ⟨n + 1, h⟩ h0 h1]
      dsimp only
      refine (congrFun (Pieces.acc_first (F := Ideal) c (grid0.coords ⟨n + 1, h⟩) (ms0_0 ⟨n + 1, h⟩) (hs0_0 ⟨n + 1, h⟩) (ms0_1 ⟨n + 1, h⟩) (hs0_1 ⟨n + 1, h⟩)
        (ms0_2 ⟨n + 1, h⟩) (hs0_2 ⟨n + 1, h⟩) scM0_0 (Memref.isWhole_whole _) ((hcond0_0 ⟨n + 1, h⟩).mpr h0)
        (fun h' => h1 ((hcond0_1 ⟨n + 1, h⟩).mp h')) (gBlk m c ⟨n + 1, h⟩) (aBlk m c ⟨n + 1, h⟩)) (ix2 p q)).trans ?_
      rw [Payload.update_apply, Payload.reset_apply, zero_add, block_share m c ⟨n + 1, h⟩ p q]
      show share _ ((n + 1) % 8) = running _ ((n + 1) % 8)
      rw [h0]
      exact (running_zero _).symm
    · have hb : batch (n + 1) = batch n := Fin.ext (by show (n + 1) / 8 % 8 = n / 8 % 8; omega)
      have hk : (n + 1) % 8 = n % 8 + 1 := by omega
      have ih := acc_eq c n (Nat.lt_of_succ_lt h) p q
      by_cases h1 : (n + 1) % 8 = 7
      · rw [outsAt0_C m c ⟨n + 1, h⟩ h0 h1]
        dsimp only
        refine (congrFun (Pieces.acc_last (F := Ideal) c (grid0.coords ⟨n + 1, h⟩) (ms0_0 ⟨n + 1, h⟩) (hs0_0 ⟨n + 1, h⟩) (ms0_1 ⟨n + 1, h⟩) (hs0_1 ⟨n + 1, h⟩)
          (ms0_2 ⟨n + 1, h⟩) (hs0_2 ⟨n + 1, h⟩) scM0_0 (Memref.isWhole_whole _) (fun h' => h0 ((hcond0_0 ⟨n + 1, h⟩).mp h'))
          ((hcond0_1 ⟨n + 1, h⟩).mpr h1) (gBlk m c ⟨n + 1, h⟩) (aBlk m c ⟨n + 1, h⟩) (outsAt0 m c n (Nat.lt_of_succ_lt h)).2) (ix2 p q)).trans ?_
        rw [Payload.update_apply, ih, block_share m c ⟨n + 1, h⟩ p q]
        show running _ (n % 8) + share (term m c (batch (n + 1)) p q) ((n + 1) % 8) = running (term m c (batch (n + 1)) p q) ((n + 1) % 8)
        rw [hb, hk]
        exact (running_succ _ _).symm
      · rw [outsAt0_B m c ⟨n + 1, h⟩ h0 h1]
        dsimp only
        refine (congrFun (Pieces.acc_middle (F := Ideal) c (grid0.coords ⟨n + 1, h⟩) (ms0_0 ⟨n + 1, h⟩) (hs0_0 ⟨n + 1, h⟩) (ms0_1 ⟨n + 1, h⟩) (hs0_1 ⟨n + 1, h⟩)
          (ms0_2 ⟨n + 1, h⟩) (hs0_2 ⟨n + 1, h⟩) scM0_0 (Memref.isWhole_whole _) (fun h' => h0 ((hcond0_0 ⟨n + 1, h⟩).mp h'))
          (fun h' => h1 ((hcond0_1 ⟨n + 1, h⟩).mp h')) (gBlk m c ⟨n + 1, h⟩) (aBlk m c ⟨n + 1, h⟩) (outsAt0 m c n (Nat.lt_of_succ_lt h)).2) (ix2 p q)).trans ?_
        rw [Payload.update_apply, ih, block_share m c ⟨n + 1, h⟩ p q]
        show running _ (n % 8) + share (term m c (batch (n + 1)) p q) ((n + 1) % 8) = running (term m c (batch (n + 1)) p q) ((n + 1) % 8)
        rw [hb, hk]
        exact (running_succ _ _).symm

/-- At a batch's last block the output block is the accumulator under a leading unit axis. -/
theorem out_eq_acc (c : Dev nD) (t : Fin cfg0.N) (h7 : t.val % 8 = 7) (y : S1x2x4096.Idx) :
    (outsAt0 m c t.val t.isLt).1 y = (outsAt0 m c t.val t.isLt).2 (ix2 (y 1) (y 2)) := by
  have h0 : ¬t.val % 8 = 0 := by omega
  have hy : y = ix3 0 (y 1) (y 2) := by
    funext a
    match a with
    | ⟨0, _⟩ => exact Fin.ext (by have : (y 0).val < 1 := (y 0).isLt; show (y 0).val = 0; omega)
    | ⟨1, _⟩ => rfl
    | ⟨2, _⟩ => rfl
  rw [outsAt0_C m c t h0 h7]
  dsimp only
  rw [Pieces.out_last (F := Ideal), Pieces.acc_last (F := Ideal), hy]
  exact Payload.writeout_apply _ _ _

/-- What a batch's last point writes out: the product's block for that batch. -/
theorem out_point (c : Dev nD) (t : Fin cfg0.N) (h7 : t.val % 8 = 7) (y : S1x2x4096.Idx) :
    (outsAt0 m c t.val t.isLt).1 y = product (gArr m c) (aArr m c) (ix3 (batch t.val) (y 1) (y 2)) := by
  rw [out_eq_acc m c t h7 y, acc_eq m c t.val t.isLt (y 1) (y 2), h7, running_seven]
  rfl

/-- WHAT A FLUSHING POINT WRITES BACK is its block of the product. -/
theorem flushed_eq (c : Dev nD) (t : Fin cfg0.N) (hf : (cfg0.win 2).flush t = true) :
    (dats m 0 c).flushed 2 t = ((cfg0.win 2).blk t).view.read (Elt Ideal) (product (gArr m c) (aArr m c)) := by
  have h7 : t.val % 8 = 7 := (flush0_2 t).mp hf
  obtain ⟨-, -, -, -, -, -, e0, e1, e2⟩ := index_facts t
  have hN : t.val < 64 := lt_of_lt_of_eq t.isLt (show cfg0.N = 64 from N_0)
  show (cfg0.win 2).cut (grid0.coords t) ((dats m 0 c).after 2 t) = _
  rw [after0_2]
  funext j
  show (outsAt0 m c t.val t.isLt).1 j = product (gArr m c) (aArr m c) (((cfg0.win 2).blk t).view.emb j)
  refine (out_point m c t h7 j).trans (congrArg (product (gArr m c) (aArr m c)) (funext fun a => Fin.ext ?_))
  have h0 : (j 0).val < 1 := (j 0).isLt
  match a with
  | ⟨0, _⟩ => show t.val / 8 % 8 = win0_2.index t (0 : Fin 3) * 1 + 1 * (j 0).val; omega
  | ⟨1, _⟩ => show (j 1).val = win0_2.index t (1 : Fin 3) * 2 + 1 * (j 1).val; omega
  | ⟨2, _⟩ => show (j 2).val = win0_2.index t (2 : Fin 3) * 4096 + 1 * (j 2).val; omega

/-- An index of the result array is in point `t`'s block iff each coordinate is in the block's range. -/
theorem mem_blk (t : Fin cfg0.N) (i : S8x2x4096.Idx) :
    i ∈ ((cfg0.win 2).blk t).view.set ↔ ∀ a : Fin 3, win0_2.index t a * S1x2x4096.size a ≤ (i a).val ∧ (i a).val < win0_2.index t a * S1x2x4096.size a + S1x2x4096.size a := by
  show i ∈ ((View.whole main_v2).slice (win0_2.rect t)).set ↔ _
  rw [View.set_slice_whole, Rect.mem_set_unit]
  exact Iff.rfl

/-- THE RESULT ARRAY after the region: the product. Entry `(b, ·, ·)` lies in the block that point `8 b + 7` writes. -/
theorem final (c : Dev nD) : (dats m 0 c).arrAt 2 cfg0.N = product (gArr m c) (aArr m c) :=
  (dats m 0 c).arrAt_eq_of_cover 2 (product (gArr m c) (aArr m c)) (flushed_eq m c) fun i => by
    have hi0 : (i 0).val < 8 := (i 0).isLt
    have hi1 : (i 1).val < 2 := (i 1).isLt
    have hi2 : (i 2).val < 4096 := (i 2).isLt
    have hlt : 8 * (i 0).val + 7 < cfg0.N := by rw [show cfg0.N = 64 from N_0]; omega
    refine ⟨⟨8 * (i 0).val + 7, hlt⟩, (flush0_2 _).mpr (by show (8 * (i 0).val + 7) % 8 = 7; omega), ?_⟩
    obtain ⟨-, -, -, -, -, -, e0, e1, e2⟩ := index_facts ⟨8 * (i 0).val + 7, hlt⟩
    have e0' : win0_2.index ⟨8 * (i 0).val + 7, hlt⟩ (0 : Fin 3) = (8 * (i 0).val + 7) / 8 := e0
    rw [mem_blk]
    intro a
    match a with
    | ⟨0, _⟩ => show win0_2.index ⟨8 * (i 0).val + 7, hlt⟩ (0 : Fin 3) * 1 ≤ (i 0).val ∧ (i 0).val < win0_2.index ⟨8 * (i 0).val + 7, hlt⟩ (0 : Fin 3) * 1 + 1; omega
    | ⟨1, _⟩ => show win0_2.index ⟨8 * (i 0).val + 7, hlt⟩ (1 : Fin 3) * 2 ≤ (i 1).val ∧ (i 1).val < win0_2.index ⟨8 * (i 0).val + 7, hlt⟩ (1 : Fin 3) * 2 + 2; omega
    | ⟨2, _⟩ => show win0_2.index ⟨8 * (i 0).val + 7, hlt⟩ (2 : Fin 3) * 4096 ≤ (i 2).val ∧ (i 2).val < win0_2.index ⟨8 * (i 0).val + 7, hlt⟩ (2 : Fin 3) * 4096 + 4096; omega

end Cert.KernelIdeal.Acc

end
-- ==== Proof.TailKernel.lean ====
/-
  What the kernel program computes after the region, and the whole run read back.

  After the region the program reshapes the product to 8 × 2 images of 64 × 64, cuts each image into its 15 × 15
  windows of 8 × 8 entries (stride 4), and returns the mean squared distance of an entry from its window's mean.
  Every operation of that stretch reads either the region's result or something the stretch itself wrote, so its
  result is one function, `spread`, of the region's result array, whatever else memory holds. The region's result
  is the batched product (of the reshaped, transposed second argument with the first), so the program returns
  `spread` of that product.
-/
import proofs.«175463_j84945863180964_1_alg».proof.Proof.Accumulate
import Idealize.ShloMosaic.Lib.StableHlo.Run

noncomputable section

namespace Cert.KernelIdeal.Tail

open Idealize.ShloMosaic Idealize.ShloMosaic.TcCoe Idealize.SL.Sem Idealize.ShloMosaic.StableHlo
open Cert.KernelIdeal Cert.KernelIdeal.Gen

variable {F : FTy → Type} [FloatOps F]

/-- Where each of the 15 windows along an axis reads: window `w` starts at `4 w` and its 8 entries follow, so entry
    `(w, e)` is position `4 w + e`; a negative position would wrap by 64 (none is negative). -/
def windowStarts : (⟨S15x8x1, .i32⟩ : BufTy).Contents (Elt F) :=
  let s : (⟨S15x8, .i32⟩ : BufTy).Contents (Elt F) :=
    addi (broadcastInDim S15x8 ![0, 1] bcast_S15x1_S15x8_0_1 (broadcastInDim S15x1 ![0] bcast_S15_S15x1_0
        (muli (iotaInDim S15 32 0) (broadcastInDim S15 ![] bcast_S_S15 (constantI S_ 32 4#32)))))
      (broadcastInDim S15x8 ![0, 1] bcast_S1x8_S15x8_0_1 (broadcastInDim S1x8 ![1] bcast_S8_S1x8_1 (iotaInDim S8 32 0)))
  broadcastInDim S15x8x1 ![0, 1] bcast_S15x8_S15x8x1_0_1
    (select (cmpi .slt s (broadcastInDim S15x8 ![] bcast_S_S15x8 (constantI S_ 32 0#32)))
      (addi s (broadcastInDim S15x8 ![] bcast_S_S15x8 (constantI S_ 32 64#32))) s)

/-- The 8 × 8 windows of each 64 × 64 image of the product, stride 4, laid out as 225 windows of 64 entries: rows
    gathered first, then columns, the two window axes brought together and flattened. -/
def patches (v : (⟨S8x2x4096, .f32⟩ : BufTy).Contents (Elt F)) : (⟨S8x2x225x64, .f32⟩ : BufTy).Contents (Elt F) :=
  shapeCast S8x2x225x64 (transpose S8x2x15x15x8x8 [0, 1, 2, 4, 3, 5]
    (Host.gather gather_S8x2x15x8x64_S15x8x1_S8x2x15x8x15x8_0123_4_n_n_4_2_821581
      (Host.gather gather_S8x2x64x64_S15x8x1_S8x2x15x8x64_014_2_n_n_2_2_82164
        (shapeCast S8x2x64x64 v shapeCasts_S8x2x4096_S8x2x64x64) (windowStarts (F := F))) (windowStarts (F := F)))
    transposes_S8x2x15x8x15x8_S8x2x15x15x8x8_0_1_2_4_3_5) shapeCasts_S8x2x15x15x8x8_S8x2x225x64

/-- The mean over all windows and entries of the squared distance of an entry from its window's mean. -/
def spread (v : (⟨S8x2x4096, .f32⟩ : BufTy).Contents (Elt F)) : (⟨S_, .f32⟩ : BufTy).Contents (Elt F) :=
  let P := patches (F := F) v
  let centre : (⟨S8x2x225x64, .f32⟩ : BufTy).Contents (Elt F) :=
    broadcastInDim S8x2x225x64 ![0, 1, 2, 3] bcast_S8x2x225x1_S8x2x225x64_0_1_2_3
      (Host.divf (broadcastInDim S8x2x225x1 ![0, 1, 2] bcast_S8x2x225_S8x2x225x1_0_1_2
          (Host.reduceAdd P (constant S_ .f32 0x00000000#32) reducesTo_S8x2x225x64_S8x2x225_d3 h_S_))
        (broadcastInDim S8x2x225x1 ![] bcast_S_S8x2x225x1 (constant S_ .f32 0x42800000#32)))
  let d := subf P centre
  Host.divf (Host.reduceAdd (mulf d d) (constant S_ .f32 0x00000000#32) reducesTo_S8x2x225x64_S_d0_1_2_3 h_S_)
    (constant S_ .f32 0x48610000#32)

set_option maxRecDepth 8192 in
set_option maxHeartbeats 2000000 in
/-- The stretch after the region, run from any contents of memory, leaves `spread` of the region's result array in
    the program's result. -/
theorem after_region (W : Valuation τ sig (Elt F)) :
    StableHlo.after (hostOps1 (F := F)) W (Proc.devRef .tc main_v46) = spread (F := F) (W (Proc.devRef .tc main_v2)) := by
  after_results_simp
  rfl

end Cert.KernelIdeal.Tail

end
-- ==== Proof.KernelRun.lean ====
/-
  The kernel program's run, read back at the ideal values: it ends with its result at `spread` of the batched
  product of the two arrays the region reads, and with both arguments as they were.

  The left array the region reads is the second argument with its last axis moved to position 1 and its two image
  axes flattened; the right array is the first argument untouched. After the region the pipeline's result array
  holds the product, and the stretch of window operations that follows turns it into `spread` of it.
-/
import proofs.«175463_j84945863180964_1_alg».proof.Proof.TailKernel

noncomputable section

namespace Cert.KernelIdeal.Run

open Idealize.ShloMosaic Idealize.ShloMosaic.TcCoe Idealize.SL.Sem Idealize.ShloMosaic.StableHlo
open Idealize.ShloMosaic.Pipeline (Dat)
open Cert.KernelIdeal Cert.KernelIdeal.Gen Cert.KernelIdeal.Acc Cert.KernelIdeal.Tail

variable (m : (ℓ : Loc nD τ sig) → Buf (Elt Ideal) ℓ) (ρ : Dev nD → PrngReg)

/-- The left array: the second argument, transposed and reshaped by the two operations before the region. -/
theorem left_eq (c : Dev nD) :
    gArr m c = shapeCast S8x2x4096 (transpose S8x2x64x64 [0, 3, 1, 2] (m ((c : Thread nD τ).loc main_arg1))
      transposes_S8x64x64x2_S8x2x64x64_0_3_1_2) shapeCasts_S8x2x64x64_S8x2x4096 := by
  show StableHlo.after hostOps0 (fun b => m (c, b)) (Proc.devRef .tc main_v1) = _
  after_results
  rfl

/-- The right array: the first argument. -/
theorem right_eq (c : Dev nD) : aArr m c = m ((c : Thread nD τ).loc main_arg0) := V_main_arg0 m c

/-- The program's result after the region and the stretch that follows it. -/
theorem result_value (c : Dev nD) :
    Pipeline.afterTail₀ cfgs (dats m) 0 (V0 m) [hostOps1] c main_v46 = spread (F := Ideal) (product (gArr m c) (aArr m c)) := by
  unfold Pipeline.afterTail₀
  show StableHlo.after hostOps1 _ (Proc.devRef .tc main_v46) = _
  rw [after_region]
  exact congrArg (spread (F := Ideal)) ((Pipeline.withArrays_arr spec0 launch0.win.arr_inj c _ _ 2).trans (final m c))

/-- THE RUN: every weakly fair execution terminates with the result at `spread` of the product and the arguments
    unchanged. -/
theorem run : θ_run defs (onTc (τ := τ) (main (F := Ideal))) ⟨m, fun _ => 0, ρ⟩ (fun r => ∀ c : Dev nD,
      r.2.mem ((c.tc : Thread nD τ).loc main_v46) = spread (F := Ideal) (product (gArr m c) (aArr m c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨((h c).2 main_v46 (Pipeline.mem_restRefs_of main_v46 (by decide) (by decide))).trans (result_value m c),
       ((h c).1 1).trans (((dats m 0 c).arrAt_in 1 rfl _).trans ((A_eq m c 1).trans (V_main_arg0 m c))),
       ((h c).2 main_arg1 (Pipeline.mem_restRefs_of main_arg1 (by decide) (by decide))).trans (W_main_arg1 m (dats m) c)⟩)
    (run_main m ρ)

end Cert.KernelIdeal.Run

end
-- ==== Proof.TailReference.lean ====
/-
  The reference program's result, in the same words as the kernel program's.

  The reference computes the batched product by one `dot_general` (batch axis 0, the left operand's last axis
  contracted with the right operand's middle axis) of the reshaped, transposed second argument with the first, and
  then runs the very same stretch of window operations: its result is `spread` of that product. At the ideal
  values entry `(b, p, q)` of the `dot_general` is the sum over `k` of `g (b, p, k) · a (b, k, q)`.
-/
import proofs.«175463_j84945863180964_1_alg».proof.Proof.Gen.ReferenceIdeal.Read
import Idealize.ShloMosaic.Lib.ValueIdx

noncomputable section

open scoped BigOperators

namespace Cert.ReferenceIdeal.Tail

open Idealize.ShloMosaic Idealize.ShloMosaic.TcCoe Idealize.ShloMosaic.ValueIdx Idealize.SL.Sem Idealize.ShloMosaic.StableHlo
open Cert.ReferenceIdeal Cert.ReferenceIdeal.Gen

variable {F : FTy → Type} [FloatOps F]

/-- Where each of the 15 windows along an axis reads: window `w` starts at `4 w` and its 8 entries follow, so entry
    `(w, e)` is position `4 w + e`; a negative position would wrap by 64 (none is negative). -/
def windowStarts : (⟨S15x8x1, .i32⟩ : BufTy).Contents (Elt F) :=
  let s : (⟨S15x8, .i32⟩ : BufTy).Contents (Elt F) :=
    addi (broadcastInDim S15x8 ![0, 1] bcast_S15x1_S15x8_0_1 (broadcastInDim S15x1 ![0] bcast_S15_S15x1_0
        (muli (iotaInDim S15 32 0) (broadcastInDim S15 ![] bcast_S_S15 (constantI S_ 32 4#32)))))
      (broadcastInDim S15x8 ![0, 1] bcast_S1x8_S15x8_0_1 (broadcastInDim S1x8 ![1] bcast_S8_S1x8_1 (iotaInDim S8 32 0)))
  broadcastInDim S15x8x1 ![0, 1] bcast_S15x8_S15x8x1_0_1
    (select (cmpi .slt s (broadcastInDim S15x8 ![] bcast_S_S15x8 (constantI S_ 32 0#32)))
      (addi s (broadcastInDim S15x8 ![] bcast_S_S15x8 (constantI S_ 32 64#32))) s)

/-- The 8 × 8 windows of each 64 × 64 image of the product, stride 4, laid out as 225 windows of 64 entries: rows
    gathered first, then columns, the two window axes brought together and flattened. -/
def patches (v : (⟨S8x2x4096, .f32⟩ : BufTy).Contents (Elt F)) : (⟨S8x2x225x64, .f32⟩ : BufTy).Contents (Elt F) :=
  shapeCast S8x2x225x64 (transpose S8x2x15x15x8x8 [0, 1, 2, 4, 3, 5]
    (Host.gather gather_S8x2x15x8x64_S15x8x1_S8x2x15x8x15x8_0123_4_n_n_4_2_821581
      (Host.gather gather_S8x2x64x64_S15x8x1_S8x2x15x8x64_014_2_n_n_2_2_82164
        (shapeCast S8x2x64x64 v shapeCasts_S8x2x4096_S8x2x64x64) (windowStarts (F := F))) (windowStarts (F := F)))
    transposes_S8x2x15x8x15x8_S8x2x15x15x8x8_0_1_2_4_3_5) shapeCasts_S8x2x15x15x8x8_S8x2x225x64

/-- The mean over all windows and entries of the squared distance of an entry from its window's mean. -/
def spread (v : (⟨S8x2x4096, .f32⟩ : BufTy).Contents (Elt F)) : (⟨S_, .f32⟩ : BufTy).Contents (Elt F) :=
  let P := patches (F := F) v
  let centre : (⟨S8x2x225x64, .f32⟩ : BufTy).Contents (Elt F) :=
    broadcastInDim S8x2x225x64 ![0, 1, 2, 3] bcast_S8x2x225x1_S8x2x225x64_0_1_2_3
      (Host.divf (broadcastInDim S8x2x225x1 ![0, 1, 2] bcast_S8x2x225_S8x2x225x1_0_1_2
          (Host.reduceAdd P (constant S_ .f32 0x00000000#32) reducesTo_S8x2x225x64_S8x2x225_d3 h_S_))
        (broadcastInDim S8x2x225x1 ![] bcast_S_S8x2x225x1 (constant S_ .f32 0x42800000#32)))
  let d := subf P centre
  Host.divf (Host.reduceAdd (mulf d d) (constant S_ .f32 0x00000000#32) reducesTo_S8x2x225x64_S_d0_1_2_3 h_S_)
    (constant S_ .f32 0x48610000#32)

set_option maxRecDepth 8192 in
/-- The reference's composed result is `spread` of its `dot_general`. -/
theorem result_eq (m : (ℓ : Loc nD τ sig) → Buf (Elt F) ℓ) (c : Dev nD) :
    Cert.ReferenceIdeal.Value.res_main_v46 m c
      = spread (F := F) (Cert.ReferenceIdeal.Read.val_main_v2 (F := F) (m ((c.tc : Thread nD τ).loc main_arg0)) (m ((c.tc : Thread nD τ).loc main_arg1))) := by
  unfold Cert.ReferenceIdeal.Value.res_main_v46
  rfl

/-- The `dot_general` at `(b, p, q)`, at the ideal values. -/
theorem dot_apply (x0 : (⟨S8x4096x4096, .f32⟩ : BufTy).Contents (Elt Ideal)) (x1 : (⟨S8x64x64x2, .f32⟩ : BufTy).Contents (Elt Ideal))
    (i : S8x2x4096.Idx) :
    Cert.ReferenceIdeal.Read.val_main_v2 (F := Ideal) x0 x1 i
      = ∑ k : Fin 4096, Cert.ReferenceIdeal.Read.val_main_v1 (F := Ideal) x1 (ix3 (i 0) (i 1) k) * x0 (ix3 (i 0) k (i 2)) := by
  rw [Cert.ReferenceIdeal.Read.val_main_v2_apply]
  refine Finset.sum_congr rfl fun k _ => ?_
  have el : Cert.ReferenceIdeal.Read.lidx_main_v2 i k = ix3 (i 0) (i 1) k :=
    funext fun a => by match a with | ⟨0, _⟩ => rfl | ⟨1, _⟩ => rfl | ⟨2, _⟩ => rfl
  have er : Cert.ReferenceIdeal.Read.ridx_main_v2 i k = ix3 (i 0) k (i 2) :=
    funext fun a => by match a with | ⟨0, _⟩ => rfl | ⟨1, _⟩ => rfl | ⟨2, _⟩ => rfl
  rw [el, er]
  rfl

end Cert.ReferenceIdeal.Tail

end
-- ==== Proof.lean ====
/-
  Equivalence over the extended reals of a K-blocked batched matrix product, followed by a windowed variance,
  with its plain reference.

  Both programs first move the last axis of the second argument (8 × 64 × 64 × 2) to position 1 and flatten its two
  image axes, giving `g` of shape 8 × 2 × 4096, and both end with the same stretch of operations on an 8 × 2 × 4096
  array `v`: reshape to 64 × 64 images, cut out the 15 × 15 windows of 8 × 8 entries (stride 4), and return the mean
  squared distance of an entry from its window's mean (`spread v`). They differ in how `v` is made from `g` and the
  first argument `a` (8 × 4096 × 4096):

  * the reference takes one `dot_general`: `v (b, p, q) = Σ_k g (b, p, k) · a (b, k, q)`, `k` over all 4096 positions;
  * the kernel walks a grid of 8 batches × 8 blocks of 512 positions, keeps a 2 × 4096 accumulator that it zeroes at
    a batch's first block, adds each block's product to (operands cast to bf16 first — the identity on extended
    reals), and writes out at the batch's last block.

  The accumulator's chain `((0 + s₀) + s₁) + … + s₇` of the eight blocks' sums is the whole sum: addition of
  extended reals is commutative and associative, and nothing else is used — no distributivity, so the inputs'
  finiteness is never needed. The arrays agree entry by entry, hence so do the results.

  The frames of the two kernel programs are the generated ones; the reference's frame is its generated run with the
  result dropped; the idealization rewrote nothing, so `preserves` is trivial.
-/
import proofs.«175463_j84945863180964_1_alg».proof.Defs
import proofs.«175463_j84945863180964_1_alg».proof.Proof.Gen.Kernel
import proofs.«175463_j84945863180964_1_alg».proof.Proof.Gen.Kernel.Skeleton
import proofs.«175463_j84945863180964_1_alg».proof.Proof.Gen.Kernel.Launch
import proofs.«175463_j84945863180964_1_alg».proof.Proof.Gen.Kernel.Points
import proofs.«175463_j84945863180964_1_alg».proof.Proof.Gen.Kernel.Frame
import proofs.«175463_j84945863180964_1_alg».proof.Proof.Gen.KernelIdeal
import proofs.«175463_j84945863180964_1_alg».proof.Proof.Gen.KernelIdeal.Skeleton
import proofs.«175463_j84945863180964_1_alg».proof.Proof.Gen.KernelIdeal.Launch
import proofs.«175463_j84945863180964_1_alg».proof.Proof.Gen.KernelIdeal.Points
import proofs.«175463_j84945863180964_1_alg».proof.Proof.Gen.KernelIdeal.Frame
import proofs.«175463_j84945863180964_1_alg».proof.Proof.Gen.ReferenceIdeal
import proofs.«175463_j84945863180964_1_alg».proof.Proof.Gen.Pre_finite_inputs
import proofs.«175463_j84945863180964_1_alg».proof.Proof.Gen.ReferenceIdeal.Run
import proofs.«175463_j84945863180964_1_alg».proof.Proof.Gen.ReferenceIdeal.Read
import proofs.«175463_j84945863180964_1_alg».proof.Proof.KernelRun
import proofs.«175463_j84945863180964_1_alg».proof.Proof.TailReference
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The stretch after the product is the same function in both programs. -/
theorem spread_same (v : Vec Ideal Cert.KernelIdeal.S8x2x4096 .f32) :
    Cert.ReferenceIdeal.Tail.spread (F := Ideal) v = Cert.KernelIdeal.Tail.spread (F := Ideal) v := rfl

/-- The kernel's result is `spread` of the accumulated product, the reference's `spread` of its `dot_general`, of
    arguments that agree; the two products are one array, entry by entry. -/
theorem algebraic : Cert.algebraic_KernelIdeal_ReferenceIdeal := by
  intro m ρ m' ρ' _ hagree
  refine ⟨fun c => Cert.KernelIdeal.Tail.spread (F := Ideal)
      (Cert.KernelIdeal.Acc.product (Cert.KernelIdeal.Acc.gArr m c) (Cert.KernelIdeal.Acc.aArr m c)),
    Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  have hv : Cert.ReferenceIdeal.Read.val_main_v2 (F := Ideal)
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
      = Cert.KernelIdeal.Acc.product (Cert.KernelIdeal.Acc.gArr m c) (Cert.KernelIdeal.Acc.aArr m c) := by
    funext i
    rw [Cert.ReferenceIdeal.Tail.dot_apply, (hagree c).1, (hagree c).2, Cert.KernelIdeal.Run.left_eq m c,
      Cert.KernelIdeal.Run.right_eq m c]
    rfl
  rw [Cert.ReferenceIdeal.Tail.result_eq, hv]
  exact spread_same _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
